-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S64x4096x128 : Shape := ⟨3, ![64, 4096, 128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S64x4096x128 : S_.BroadcastsInDim S64x4096x128 (![] : Fin 0 → Fin S64x4096x128.rank)
  reducesTo_S64x4096x128_S_d0_1_2 : S64x4096x128.ReducesTo [0, 1, 2] S_

variable [Facts]

def fn {F : FTy → Type} [FloatOps F] (main_arg0 : FVec F S64x32x128 .f32) (main_arg1 : FVec F S64x4096x128 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S64x4096x128 .f32 := Host.absf main_arg1
  let main_cst_0 : FVec F S_ .f32 := constant S_ .f32 0x7F800000#32
  let main_v5 : FVec F S64x4096x128 .f32 := broadcastInDim S64x4096x128 ![] bcast_S_S64x4096x128 main_cst_0
  let main_v6 : IVec S64x4096x128 1 := cmpf .olt main_v4 main_v5
  let main_c_1 : IVec S_ 1 := constantI S_ 1 1#1
  let main_v7 : IVec S_ 1 := (fun x v => Host.reduce IntOp.andi x v reducesTo_S64x4096x128_S_d0_1_2 h_S_) main_v6 main_c_1
  let main_v8 : IVec S_ 1 := andi main_v3 main_v7
  main_v8
-- ==== Kernel.lean ====
abbrev S64x32x128 : Shape := ⟨3, ![64, 32, 128]⟩
abbrev S64x4096x128 : Shape := ⟨3, ![64, 4096, 128]⟩
abbrev S64x128 : Shape := ⟨2, ![64, 128]⟩
abbrev S32x32x128 : Shape := ⟨3, ![32, 32, 128]⟩
abbrev S32x512x128 : Shape := ⟨3, ![32, 512, 128]⟩
abbrev S32x128 : Shape := ⟨2, ![32, 128]⟩
abbrev S32x32 : Shape := ⟨2, ![32, 32]⟩
abbrev S32x32x512 : Shape := ⟨3, ![32, 32, 512]⟩
abbrev S32 : Shape := ⟨1, ![32]⟩
abbrev S32x1 : Shape := ⟨2, ![32, 1]⟩
abbrev S64x1 : Shape := ⟨2, ![64, 1]⟩
abbrev S64 : Shape := ⟨1, ![64]⟩

abbrev nBuf : Space → Nat
  | .hbm => 5
  | .vmem => 7
  | .smem => 0
  | _ => 0

abbrev bufTy : (tb : Table) → Fin (tcTables nBuf tb) → BufTy
  | .hbm, ⟨0, _⟩ => ⟨S64x32x128, .f32⟩
  | .hbm, ⟨1, _⟩ => ⟨S64x4096x128, .f32⟩
  | .hbm, ⟨2, _⟩ => ⟨S64x128, .f32⟩
  | .hbm, ⟨3, _⟩ => ⟨S64x1, .f32⟩
  | .hbm, ⟨4, _⟩ => ⟨S64, .f32⟩
  | .local _ .vmem, ⟨0, _⟩ => ⟨S32x32x128, .f32⟩
  | .local _ .vmem, ⟨1, _⟩ => ⟨S32x32x128, .f32⟩
  | .local _ .vmem, ⟨2, _⟩ => ⟨S32x512x128, .f32⟩
  | .local _ .vmem, ⟨3, _⟩ => ⟨S32x512x128, .f32⟩
  | .local _ .vmem, ⟨4, _⟩ => ⟨S32x128, .f32⟩
  | .local _ .vmem, ⟨5, _⟩ => ⟨S32x128, .f32⟩
  | .local _ .vmem, ⟨6, _⟩ => ⟨S32x32, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_11 : BitVec 32 := 0#32
  let v16 : BitVec 1 := Scalar.cmpi .ne v15 c0_i32_11
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x32x128_S32x32x128_0_0_0 : ∀ a, (![0, 0, 0] : Fin 3 → Nat) a + S32x32x128.size a ≤ S32x32x128.size a
  h_S32x32x128 : 0 < S32x32x128.numel
  bitsLt_bf16_f32 : FTy.bits .bf16 < FTy.bits .f32
  inb_S32x512x128_S32x512x128_0_0_0 : ∀ a, (![0, 0, 0] : Fin 3 → Nat) a + S32x512x128.size a ≤ S32x512x128.size a
  h_S32x512x128 : 0 < S32x512x128.numel
  reduces_S32x32x512_S32x32 : S32x32x512.Reduces [2] S32x32
  reduces_S32x32_S32 : S32x32.Reduces [1] S32
  shapeCasts_S32_S32x1 : S32.ShapeCasts S32x1
  shapeCasts_S32x1_S32x1 : S32x1.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  slices_S64x128_S64x1_0_0 : S64x128.Slices ![0, 0] S64x1
  shapeCasts_S64x1_S64 : S64x1.ShapeCasts S64
  dot_S32x32x128_S32x512x128_S32x32x512_2_2_1_1_0_0_wf : DotDims.WF S32x32x128 S32x512x128 S32x32x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S64x32x128.size a
  hwx0_0 : ∀ i : grid0.Coords, EltTy.bits .f32 = 32 ∨ (Rect.block (s := S64x32x128) S32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512x128.size a ≤ S64x4096x128.size a
  hwx0_1 : ∀ i : grid0.Coords, EltTy.bits .f32 = 32 ∨ (Rect.block (s := S64x4096x128) S32x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x128.size a
  hwx0_2 : ∀ i : grid0.Coords, EltTy.bits .f32 = 32 ∨ (Rect.block (s := S64x128) S32x128.size (cc0_transform_2 i) (hinb0_2 i)).WholeWords (EltTy.packing .f32)

variable [Facts₀]

def dot_S32x32x128_S32x512x128_S32x32x512_2_2_1_1_0_0 : DotDims S32x32x128 S32x512x128 S32x32x512 where
  lhsContracting := [2]
  rhsContracting := [2]
  lhsNonContracting := [1]
  rhsNonContracting := [1]
  lhsBatch := [0]
  rhsBatch := [0]
  wf := dot_S32x32x128_S32x512x128_S32x32x512_2_2_1_1_0_0_wf

abbrev win0_0 : Pipeline.Window sig grid0 :=
  Pipeline.Window.ofSpec (Memref.whole main_arg0) S32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x32x128 : Shape := ⟨3, ![64, 32, 128]⟩
abbrev S64x4096x128 : Shape := ⟨3, ![64, 4096, 128]⟩
abbrev S64x32x4096 : Shape := ⟨3, ![64, 32, 4096]⟩
abbrev S_ : Shape := ⟨0, ![]⟩
abbrev S64x32 : Shape := ⟨2, ![64, 32]⟩
abbrev S64 : Shape := ⟨1, ![64]⟩

abbrev nBuf : Space → Nat
  | .hbm => 7
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S64x4096x128, .f32⟩
  | .hbm, ⟨2, _⟩ => ⟨S64x32x4096, .f32⟩
  | .hbm, ⟨3, _⟩ => ⟨S_, .f32⟩
  | .hbm, ⟨4, _⟩ => ⟨S64x32, .f32⟩
  | .hbm, ⟨5, _⟩ => ⟨S_, .f32⟩
  | .hbm, ⟨6, _⟩ => ⟨S64, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S64x32x4096_S64x32_d2 : S64x32x4096.ReducesTo [2] S64x32
  h_S_ : 0 < S_.numel
  reducesTo_S64x32_S64_d1 : S64x32.ReducesTo [1] S64
  dot_S64x32x128_S64x4096x128_S64x32x4096_2_2_1_1_0_0_wf : DotDims.WF S64x32x128 S64x4096x128 S64x32x4096 [2] [2] [1] [1] [0] [0]

variable [Facts₀]

def dot_S64x32x128_S64x4096x128_S64x32x4096_2_2_1_1_0_0 : DotDims S64x32x128 S64x4096x128 S64x32x4096 where
  lhsContracting := [2]
  rhsContracting := [2]
  lhsNonContracting := [1]
  rhsNonContracting := [1]
  lhsBatch := [0]
  rhsBatch := [0]
  wf := dot_S64x32x128_S64x4096x128_S64x32x4096_2_2_1_1_0_0_wf

class Facts : Prop extends Facts₀ where

variable [Facts]
-- ==== Proof.Spec.lean ====
/-
  Late-interaction similarity of a query against a document, batch entry by batch entry: every query token is
  scored against every document token by the inner product of their embeddings, each query token keeps its
  greatest score, and the batch entry's result is the sum of those greatest scores over the query tokens.

  This module states that function over the extended reals (no program is imported) and proves the one law the
  comparison of the two programs rests on: the greatest score over all 4096 document tokens is what is left after
  taking, tile by tile of 512 tokens and from minus infinity, the maximum of what was held before with the tile's
  own greatest score. Only that `max` is commutative, associative and has minus infinity as its identity is used:
  nothing about finiteness.
-/
import Idealize.ShloMosaic.Lib.ValueIdx
import Idealize.ShloMosaic.PureOps.Ideal.Laws

noncomputable section

namespace Cert.MaxSim

open Idealize.ShloMosaic Idealize.ShloMosaic.ValueIdx

/-- The query embeddings: 64 batch entries, 32 query tokens, 128 features. -/
abbrev QS : Shape := ⟨3, ![64, 32, 128]⟩
/-- The document embeddings: 64 batch entries, 4096 document tokens, 128 features. -/
abbrev DS : Shape := ⟨3, ![64, 4096, 128]⟩

/-- Minus infinity, as the f32 pattern from which both programs start a maximum. -/
abbrev negInf : EReal := Ideal.ofBits .f32 0xFF800000#32

theorem negInf_eq : negInf = ⊥ := by simp [negInf, Ideal.ofBits, Ideal.ieee]

/-- The score of query token `p` against document token `l` in batch entry `b`: the inner product over the features. -/
def score (Q : QS.Idx → EReal) (D : DS.Idx → EReal) (b : Fin 64) (p : Fin 32) (l : Fin 4096) : EReal :=
  ∑ k : Fin 128, Q (ix3 b p k) * D (ix3 b l k)

/-- The greatest of the 4096 values, folded from minus infinity. -/
def best (f : Fin 4096 → EReal) : EReal := Finset.univ.fold max negInf f

/-- Document token `l` of tile `n` (eight tiles of 512 tokens). -/
def tok (n : Fin 8) (l : Fin 512) : Fin 4096 := ⟨512 * n.val + l.val, by have := n.isLt; have := l.isLt; omega⟩

/-- The greatest value within tile `n`, folded from minus infinity. -/
def tileBest (f : Fin 4096 → EReal) (n : Fin 8) : EReal := Finset.univ.fold max negInf (fun l : Fin 512 => f (tok n l))

/-- What is held after tile `n`: from minus infinity, the maximum with each tile's greatest value in turn. -/
def running (f : Fin 4096 → EReal) : (n : ℕ) → n < 8 → EReal
  | 0, h => max negInf (tileBest f ⟨0, h⟩)
  | n + 1, h => max (running f n (Nat.lt_of_succ_lt h)) (tileBest f ⟨n + 1, h⟩)

/-- The result for batch entry `b`: the sum over the query tokens of each one's greatest score. -/
def maxSim (Q : QS.Idx → EReal) (D : DS.Idx → EReal) (b : Fin 64) : EReal :=
  ∑ p : Fin 32, best (score Q D b p)

/-- A maximum folded from minus infinity is the supremum. -/
theorem fold_max_eq_sup {ι : Type} [Fintype ι] (g : ι → EReal) :
    (Finset.univ : Finset ι).fold max negInf g = Finset.univ.sup g := by
  rw [negInf_eq]; rfl

theorem tileBest_le_best (f : Fin 4096 → EReal) (n : Fin 8) : tileBest f n ≤ best f := by
  unfold tileBest best
  rw [fold_max_eq_sup, fold_max_eq_sup]
  exact Finset.sup_le fun l _ => Finset.le_sup (f := f) (Finset.mem_univ (tok n l))

theorem running_le_best (f : Fin 4096 → EReal) : ∀ (n : ℕ) (h : n < 8), running f n h ≤ best f
  | 0, h => max_le (by rw [negInf_eq]; exact bot_le) (tileBest_le_best f _)
  | n + 1, h => max_le (running_le_best f n _) (tileBest_le_best f _)

/-- Every tile up to `n` has its greatest value below what is held after tile `n`. -/
theorem tileBest_le_running (f : Fin 4096 → EReal) :
    ∀ (n : ℕ) (h : n < 8) (k : Fin 8), k.val ≤ n → tileBest f k ≤ running f n h
  | 0, h, k, hk => by
    obtain rfl : k = ⟨0, h⟩ := Fin.ext (Nat.le_zero.mp hk)
    exact le_max_right _ _
  | n + 1, h, k, hk => by
    rcases Nat.lt_or_ge k.val (n + 1) with hlt | hge
    · exact le_trans (tileBest_le_running f n _ k (Nat.lt_succ_iff.mp hlt)) (le_max_left _ _)
    · obtain rfl : k = ⟨n + 1, h⟩ := Fin.ext (le_antisymm hk hge)
      exact le_max_right _ _

/-- Every value lies in its tile. -/
theorem le_tileBest (f : Fin 4096 → EReal) (l : Fin 4096) :
    f l ≤ tileBest f ⟨l.val / 512, by have := l.isLt; omega⟩ := by
  unfold tileBest
  rw [fold_max_eq_sup]
  have e : l = tok ⟨l.val / 512, by have := l.isLt; omega⟩ ⟨l.val % 512, Nat.mod_lt _ (by decide)⟩ :=
    Fin.ext (by show l.val = 512 * (l.val / 512) + l.val % 512; omega)
  calc f l = (fun j : Fin 512 => f (tok ⟨l.val / 512, by have := l.isLt; omega⟩ j)) ⟨l.val % 512, Nat.mod_lt _ (by decide)⟩ :=
        congrArg f e
    _ ≤ _ := Finset.le_sup (f := fun j : Fin 512 => f (tok ⟨l.val / 512, by have := l.isLt; omega⟩ j)) (Finset.mem_univ _)

/-- THE LAW: after the eighth tile the running maximum is the greatest of all 4096 values. -/
theorem running_last (f : Fin 4096 → EReal) (h : 7 < 8) : running f 7 h = best f := by
  refine le_antisymm (running_le_best f 7 h) ?_
  unfold best
  rw [fold_max_eq_sup]
  refine Finset.sup_le fun l _ => (le_tileBest f l).trans (tileBest_le_running f 7 h _ ?_)
  show l.val / 512 ≤ 7
  have := l.isLt; omega

end Cert.MaxSim

end
-- ==== Proof.RefSide.lean ====
/-
  The reference program's result, read at batch entry `b`, is `Cert.MaxSim.maxSim`: its three operations are the
  batched inner products (one sum over the 128 features per query token and document token), the maximum over
  the 4096 document tokens from minus infinity, and zero plus the sum over the 32 query tokens.
-/
import proofs.«170979_j15006615733213_1_alg».proof.Proof.Gen.ReferenceIdeal.Read
import proofs.«170979_j15006615733213_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

/-- The maximum stage at (b, p): the fold of `max` from minus infinity over the document tokens `l` of the scores. -/
theorem rowMax_apply (Q : S64x32x128.Idx → EReal) (D : S64x4096x128.Idx → EReal) (b : Fin 64) (p : Fin 32) :
    val_main_v1 (F := Ideal) Q D (ix2 b p) = Cert.MaxSim.best (Cert.MaxSim.score Q D b p) := by
  have hR : S64x32x4096.Reduces [2] S64x32 := by decide
  unfold val_main_v1
  rw [Host.reduce_eq_fold_single FloatOps.maximumf _ _ reducesTo_S64x32x4096_S64x32_d2 hR h_S_]
  unfold Cert.MaxSim.best
  show (Finset.univ : Finset (Fin 4096)).fold max Cert.MaxSim.negInf
      (fun l : Fin 4096 => val_main_v0 (F := Ideal) Q D (hR.lift (ix2 b p) l)) = _
  congr 1
  funext l
  rw [val_main_v0_apply]
  unfold Cert.MaxSim.score
  refine Finset.sum_congr rfl fun k _ => ?_
  congr 2
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl

/-- The reference's result at batch entry `b`. -/
theorem result_apply (Q : S64x32x128.Idx → EReal) (D : S64x4096x128.Idx → EReal) (b : Fin 64) :
    val_main_v2 (F := Ideal) Q D (ix1 b) = Cert.MaxSim.maxSim Q D b := by
  rw [val_main_v2_apply]
  show Ideal.ofBits .f32 0x00000000#32 + _ = _
  rw [Ideal.ofBits_zero_f32, zero_add]
  unfold Cert.MaxSim.maxSim
  refine Finset.sum_congr rfl fun p _ => ?_
  rw [← rowMax_apply Q D b p]
  exact congrArg _ (funext fun a => Fin.ext (by match a with | ⟨0, _⟩ => rfl | ⟨1, _⟩ => rfl))

end Cert.ReferenceIdeal.RefValue

end
-- ==== Proof.Payload.lean ====
/-
  The three values the kernel body stores, each read at an index over the extended reals.

  * the reset value: minus infinity everywhere;
  * the update of the running maxima: at (b, p) the maximum of what was held there with the greatest, over the
    512 document tokens of the tile, of the inner products over the 128 features of query token p with each
    of them (the narrowing of both operands to bf16 is the identity at the extended reals, and the matrix
    product into a zero accumulator is the plain sum of products);
  * the written-back block: at (b, lane), for every lane, the sum over the 32 query tokens of the running maxima.
-/
import proofs.«170979_j15006615733213_1_alg».proof.Proof.Gen.KernelIdeal.Skeleton
import proofs.«170979_j15006615733213_1_alg».proof.Proof.Spec
import Idealize.ShloMosaic.Lib.Pipeline.Value
import Idealize.ShloMosaic.Lib.ValueLayout

noncomputable section

namespace Cert.KernelIdeal.Payload

open Idealize.ShloMosaic Idealize.ShloMosaic.ValueIdx
open Cert.KernelIdeal Cert.KernelIdeal.Gen

/-! ## The tile's matrix product at (b, p, l) -/

theorem lhs_0 (i : S32x32x512.Idx) (q : dot_S32x32x128_S32x512x128_S32x32x512_2_2_1_1_0_0.contr.Idx) :
    (dot_S32x32x128_S32x512x128_S32x32x512_2_2_1_1_0_0.lhsIdx i q 0).val = (i 0).val := by
  unfold DotDims.lhsIdx
  rw [dif_pos (show (0 : Fin S32x32x128.rank) ∈ dot_S32x32x128_S32x512x128_S32x32x512_2_2_1_1_0_0.lhsBatch by decide)]
  rfl
theorem lhs_1 (i : S32x32x512.Idx) (q : dot_S32x32x128_S32x512x128_S32x32x512_2_2_1_1_0_0.contr.Idx) :
    (dot_S32x32x128_S32x512x128_S32x32x512_2_2_1_1_0_0.lhsIdx i q 1).val = (i 1).val := by
  unfold DotDims.lhsIdx
  rw [dif_neg (show ¬(1 : Fin S32x32x128.rank) ∈ dot_S32x32x128_S32x512x128_S32x32x512_2_2_1_1_0_0.lhsBatch by decide), dif_pos (show (1 : Fin S32x32x128.rank) ∈ dot_S32x32x128_S32x512x128_S32x32x512_2_2_1_1_0_0.lhsNonContracting by decide)]
  rfl
theorem lhs_2 (i : S32x32x512.Idx) (q : dot_S32x32x128_S32x512x128_S32x32x512_2_2_1_1_0_0.contr.Idx) :
    (dot_S32x32x128_S32x512x128_S32x32x512_2_2_1_1_0_0.lhsIdx i q 2).val = (q ⟨0, by decide⟩).val :=
  dot_S32x32x128_S32x512x128_S32x32x512_2_2_1_1_0_0.lhsIdx_val_of_single rfl i q
theorem rhs_0 (i : S32x32x512.Idx) (q : dot_S32x32x128_S32x512x128_S32x32x512_2_2_1_1_0_0.contr.Idx) :
    (dot_S32x32x128_S32x512x128_S32x32x512_2_2_1_1_0_0.rhsIdx i q 0).val = (i 0).val := by
  unfold DotDims.rhsIdx
  rw [dif_pos (show (0 : Fin S32x512x128.rank) ∈ dot_S32x32x128_S32x512x128_S32x32x512_2_2_1_1_0_0.rhsBatch by decide)]
  rfl
theorem rhs_1 (i : S32x32x512.Idx) (q : dot_S32x32x128_S32x512x128_S32x32x512_2_2_1_1_0_0.contr.Idx) :
    (dot_S32x32x128_S32x512x128_S32x32x512_2_2_1_1_0_0.rhsIdx i q 1).val = (i 2).val := by
  unfold DotDims.rhsIdx
  rw [dif_neg (show ¬(1 : Fin S32x512x128.rank) ∈ dot_S32x32x128_S32x512x128_S32x32x512_2_2_1_1_0_0.rhsBatch by decide), dif_pos (show (1 : Fin S32x512x128.rank) ∈ dot_S32x32x128_S32x512x128_S32x32x512_2_2_1_1_0_0.rhsNonContracting by decide)]
  rfl
theorem rhs_2 (i : S32x32x512.Idx) (q : dot_S32x32x128_S32x512x128_S32x32x512_2_2_1_1_0_0.contr.Idx) :
    (dot_S32x32x128_S32x512x128_S32x32x512_2_2_1_1_0_0.rhsIdx i q 2).val = (q ⟨0, by decide⟩).val :=
  dot_S32x32x128_S32x512x128_S32x32x512_2_2_1_1_0_0.rhsIdx_val_of_single rfl i q

/-- The tile's scores: at (b, p, l) the sum over the features of query token p times document token l, batch row b. -/
theorem tileScores_apply (x0 : FVec Ideal S32x32x128 .f32) (x1 : FVec Ideal S32x512x128 .f32) (b p : Fin 32) (l : Fin 512) :
    matmul dot_S32x32x128_S32x512x128_S32x32x512_2_2_1_1_0_0 none (truncf .bf16 x0 bitsLt_bf16_f32) (truncf .bf16 x1 bitsLt_bf16_f32)
        (constant (F := Ideal) S32x32x512 .f32 0x00000000#32) (ix3 b p l)
      = ∑ k : Fin 128, x0 (ix3 b p k) * x1 (ix3 b l k) := by
  simp only [matmul]
  rw [Ideal.matmul_constant_zero_apply, ← Equiv.sum_comp (ValueIdx.contrEquiv1 dot_S32x32x128_S32x512x128_S32x32x512_2_2_1_1_0_0 128 rfl rfl).symm]
  refine Finset.sum_congr rfl fun k _ => ?_
  have hk := ValueIdx.contrEquiv1_symm_val dot_S32x32x128_S32x512x128_S32x32x512_2_2_1_1_0_0 128 rfl rfl k
  have el : dot_S32x32x128_S32x512x128_S32x32x512_2_2_1_1_0_0.lhsIdx (ix3 b p l) ((ValueIdx.contrEquiv1 dot_S32x32x128_S32x512x128_S32x32x512_2_2_1_1_0_0 128 rfl rfl).symm k) = ix3 b p k := funext fun a => Fin.ext (by
    match a with
    | ⟨0, _⟩ => exact lhs_0 _ _
    | ⟨1, _⟩ => exact lhs_1 _ _
    | ⟨2, _⟩ => exact (lhs_2 _ _).trans hk)
  have er : dot_S32x32x128_S32x512x128_S32x32x512_2_2_1_1_0_0.rhsIdx (ix3 b p l) ((ValueIdx.contrEquiv1 dot_S32x32x128_S32x512x128_S32x32x512_2_2_1_1_0_0 128 rfl rfl).symm k) = ix3 b l k := funext fun a => Fin.ext (by
    match a with
    | ⟨0, _⟩ => exact rhs_0 _ _
    | ⟨1, _⟩ => exact rhs_1 _ _
    | ⟨2, _⟩ => exact (rhs_2 _ _).trans hk)
  rw [el, er]
  rfl

/-! ## The stored values -/

/-- The reset stores minus infinity at every entry. -/
theorem reset_apply (j : S32x32.Idx) : (k0_pay1 (F := Ideal)) j = Cert.MaxSim.negInf := by
  unfold k0_pay1
  rw [shapeCast_self]
  rfl

/-- A maximum over the last axis of a [32, 32, 512] vector from minus infinity, at (b, p): the fold of `max` over l. -/
theorem lastAxisMax_apply (src : FVec Ideal S32x32x512 .f32) (h : S32x32x512.Reduces [2] S32x32)
    (hφ : FKind.Formats .f32) (hacc : (0xFF800000#32 : BitVec 32) = 0xFF800000#32) (b p : Fin 32) :
    multiReduction .maximumf [2] S32x32 src 0xFF800000#32 h hφ hacc (ix2 b p)
      = (Finset.univ : Finset (Fin 512)).fold max Cert.MaxSim.negInf (fun l => src (ix3 b p l)) := by
  refine (Ideal.multiReduction_maximumf_single src 0xFF800000#32 h hφ hacc (ix2 b p)).trans ?_
  show (Finset.univ : Finset (Fin 512)).fold max Cert.MaxSim.negInf (fun l : Fin 512 => src (h.lift (ix2 b p) l)) = _
  congr 1
  funext l
  exact congrArg src (funext fun a => Fin.ext (by
    match a with
    | ⟨0, _⟩ => rfl
    | ⟨1, _⟩ => rfl
    | ⟨2, _⟩ => rfl))

/-- The update at (b, p): the maximum of what was held with the tile's greatest score of query token p, batch row b. -/
theorem update_apply (x0 : Vec Ideal S32x32x128 .f32) (x1 : Vec Ideal S32x512x128 .f32) (xs : Vec Ideal S32x32 .f32)
    (b p : Fin 32) :
    k0_pay2 (F := Ideal) x0 x1 xs (ix2 b p)
      = max (xs (ix2 b p)) ((Finset.univ : Finset (Fin 512)).fold max Cert.MaxSim.negInf
          (fun l => ∑ k : Fin 128, x0 (ix3 b p k) * x1 (ix3 b l k))) := by
  unfold k0_pay2
  rw [shapeCast_self]
  refine congrArg (max (xs (ix2 b p))) ?_
  refine (lastAxisMax_apply _ reduces_S32x32x512_S32x32 (.inl rfl) rfl b p).trans ?_
  congr 1
  funext l
  exact tileScores_apply x0 x1 b p l

/-- A sum over the last axis of a [32, 32] vector from zero, at b: the sum over p. -/
theorem rowSum_apply (src : FVec Ideal S32x32 .f32) (h : S32x32.Reduces [1] S32)
    (hφ : FKind.Formats .f32) (hacc : (0x00000000#32 : BitVec 32) = 0x00000000#32) (b : Fin 32) :
    multiReduction .add [1] S32 src 0x00000000#32 h hφ hacc (ix1 b) = ∑ p : Fin 32, src (ix2 b p) := by
  refine (Ideal.multiReduction_add_single src 0x00000000#32 h hφ hacc (ix1 b)).trans ?_
  show ∑ p : Fin 32, src (h.lift (ix1 b) p) = _
  refine Finset.sum_congr rfl fun p _ => ?_
  exact congrArg src (funext fun a => Fin.ext (by
    match a with
    | ⟨0, _⟩ => rfl
    | ⟨1, _⟩ => rfl))

/-- A column [32] recast as [32, 1], at (b, 0). -/
theorem column_apply {α : Type} (x : S32.Idx → α) (h : S32.ShapeCasts S32x1) (b : Fin 32) (u : Fin 1) :
    shapeCast S32x1 x h (ix2 b u) = x (ix1 b) :=
  shapeCast_apply x h _ _ (by
    have hu : u.val = 0 := by omega
    rw [Shape.rowMajor_val_one, Shape.rowMajor_val_two]
    show b.val = b.val * 1 + u.val
    rw [hu, Nat.mul_one, Nat.add_zero])

/-- A column [32, 1] spread over 128 lanes, at (b, lane). -/
theorem spread_apply {α : Type} (x : S32x1.Idx → α) (h : S32x1.Broadcasts S32x128) (b : Fin 32) (lane : Fin 128) :
    broadcastTo S32x128 x h (ix2 b lane) = x (ix2 b (0 : Fin 1)) := by
  refine broadcastTo_apply x h (ix2 b lane) (ix2 b (0 : Fin 1)) fun ax => ?_
  match ax with
  | ⟨0, _⟩ => rfl
  | ⟨1, _⟩ => rfl

/-- The written-back block at (b, lane): the sum over the query tokens of the running maxima of batch row b. -/
theorem writeBack_apply (v : Vec Ideal S32x32 .f32) (b : Fin 32) (lane : Fin 128) :
    k0_pay3 (F := Ideal) v (ix2 b lane) = ∑ p : Fin 32, v (ix2 b p) := by
  unfold k0_pay3
  refine (spread_apply _ broadcasts_S32x1_S32x128 b lane).trans ?_
  rw [shapeCast_self]
  refine (column_apply _ shapeCasts_S32_S32x1 b 0).trans ?_
  exact rowSum_apply _ reduces_S32x32_S32 (.inl rfl) rfl b

end Cert.KernelIdeal.Payload

end
-- ==== Proof.Pieces.lean ====
/-
  What each of the body's three control cases leaves behind, as values.

  The body resets the running maxima at a batch tile's first document tile, updates them at every document tile,
  and at the last one also writes the block of sums back. So:
  * at a first tile the running maxima end as the update of the freshly reset ones (the reset is read back);
  * at a later tile they end as the update of what the tile before left;
  * at a last tile the written-back block is computed from the running maxima as just updated (read back).
  Each statement is the case's covering store read as the value it stores, whole staging buffers being read and
  written through the zero offset.
-/
import proofs.«170979_j15006615733213_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A batch tile's first document tile: the running maxima end as the update of the reset ones. -/
theorem held_first (c : Dev nD) (i : grid0.Coords) (arg2 : Memref sig .tc .vmem S32x32x128 .f32) (harg2 : arg2.IsWhole) (arg3 : Memref sig .tc .vmem S32x512x128 .f32) (harg3 : arg3.IsWhole) (arg4 : Memref sig .tc .vmem S32x128 .f32) (harg4 : arg4.IsWhole) (arg5 : Memref sig .tc .vmem S32x32 .f32) (harg5 : arg5.IsWhole) (hc0 : cond0_0 i) (hc1 : ¬cond0_1 i)
    (x0 : Vec F S32x32x128 .f32) (x1 : Vec F S32x512x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S32x32) hz2, View.readCov_unit_zero (S := S32x32) _ hz2]
  simp only [View.readAt_eq_ld, harg2.read_unread, harg3.read_unread, harg5.read_unread, View.ld_unit_zero (S := S32x32x128) hz3, View.ld_unit_zero (S := S32x512x128) hz3, View.ld_unit_zero (S := S32x32) hz2]

/-- A document tile that is neither first nor last: the update of what the tile before left. -/
theorem held_middle (c : Dev nD) (i : grid0.Coords) (arg2 : Memref sig .tc .vmem S32x32x128 .f32) (harg2 : arg2.IsWhole) (arg3 : Memref sig .tc .vmem S32x512x128 .f32) (harg3 : arg3.IsWhole) (arg4 : Memref sig .tc .vmem S32x128 .f32) (harg4 : arg4.IsWhole) (arg5 : Memref sig .tc .vmem S32x32 .f32) (harg5 : arg5.IsWhole) (hc0 : ¬cond0_0 i) (hc1 : ¬cond0_1 i)
    (x0 : Vec F S32x32x128 .f32) (x1 : Vec F S32x512x128 .f32) (xs0 : Vec F S32x32 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S32x32x128) hz3, View.ld_unit_zero (S := S32x512x128) hz3, View.ld_unit_zero (S := S32x32) hz2]

/-- The last document tile: the same update of what the tile before left. -/
theorem held_last (c : Dev nD) (i : grid0.Coords) (arg2 : Memref sig .tc .vmem S32x32x128 .f32) (harg2 : arg2.IsWhole) (arg3 : Memref sig .tc .vmem S32x512x128 .f32) (harg3 : arg3.IsWhole) (arg4 : Memref sig .tc .vmem S32x128 .f32) (harg4 : arg4.IsWhole) (arg5 : Memref sig .tc .vmem S32x32 .f32) (harg5 : arg5.IsWhole) (hc0 : ¬cond0_0 i) (hc1 : cond0_1 i)
    (x0 : Vec F S32x32x128 .f32) (x1 : Vec F S32x512x128 .f32) (xs0 : Vec F S32x32 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S32x32x128) hz3, View.ld_unit_zero (S := S32x512x128) hz3, View.ld_unit_zero (S := S32x32) hz2]

/-- The last document tile: the block written back is computed from the running maxima as just updated. -/
theorem block_last (c : Dev nD) (i : grid0.Coords) (arg2 : Memref sig .tc .vmem S32x32x128 .f32) (harg2 : arg2.IsWhole) (arg3 : Memref sig .tc .vmem S32x512x128 .f32) (harg3 : arg3.IsWhole) (arg4 : Memref sig .tc .vmem S32x128 .f32) (harg4 : arg4.IsWhole) (arg5 : Memref sig .tc .vmem S32x32 .f32) (harg5 : arg5.IsWhole) (hc0 : ¬cond0_0 i) (hc1 : cond0_1 i)
    (x0 : Vec F S32x32x128 .f32) (x1 : Vec F S32x512x128 .f32) (xs0 : Vec F S32x32 .f32) :
    out0_C_2 c i arg2 harg2 arg3 harg3 arg4 harg4 arg5 harg5 hc0 hc1 x0 x1 xs0 = k0_pay3 (sout0_C_0 c i arg2 harg2 arg3 harg3 arg4 harg4 arg5 harg5 hc0 hc1 x0 x1 xs0) := by
  rw [held_last]
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S32x32) _ hz2]
  simp only [View.readAt_eq_ld, harg2.read_unread, harg3.read_unread, harg5.read_unread, View.ld_unit_zero (S := S32x32x128) hz3, View.ld_unit_zero (S := S32x512x128) hz3, View.ld_unit_zero (S := S32x32) hz2]

end Cert.KernelIdeal.Pieces

end
-- ==== Proof.Held.lean ====
/-
  What the kernel holds, grid point by grid point, over the extended reals.

  The grid is 2 batch tiles (32 batch rows each) by 8 document tiles (512 document tokens each), walked batch
  tile by batch tile; point 8 g + n is document tile n of batch tile g. A block of the queries at that point is
  rows 32 g .. 32 g + 31 of the query array, a block of the documents rows 32 g .. 32 g + 31 and tokens
  512 n .. 512 n + 511 of the document array.

  After point 8 g + n the carried running maxima hold, at (b, p), the running maximum (over document tiles 0..n)
  of the scores of query token p of batch row 32 g + b: by induction on n, the first tile starting from the reset
  value. After point 8 g + 7 the written-back block holds at (b, lane) the sum over p of those running maxima,
  which after the eighth tile are the greatest scores over all 4096 tokens.
-/
import proofs.«170979_j15006615733213_1_alg».proof.Proof.Gen.KernelIdeal.Frame
import proofs.«170979_j15006615733213_1_alg».proof.Proof.Spec
import proofs.«170979_j15006615733213_1_alg».proof.Proof.Payload
import proofs.«170979_j15006615733213_1_alg».proof.Proof.Pieces
import Idealize.ShloMosaic.Lib.Pipeline.Value

noncomputable section

namespace Cert.KernelIdeal.Held

open Idealize.ShloMosaic Idealize.ShloMosaic.TcCoe Idealize.SL.Sem Idealize.ShloMosaic.ValueIdx
open Idealize.ShloMosaic.Pipeline (Dat)
open Cert.KernelIdeal Cert.KernelIdeal.Gen
open Cert.MaxSim (score best tok tileBest running maxSim negInf)

variable (m : (ℓ : Loc nD τ sig) → Buf (Elt Ideal) ℓ)

/-- The query array and the document array as the region finds them. -/
abbrev Q (c : Dev nD) : Vec Ideal S64x32x128 .f32 := V m c main_arg0
abbrev D (c : Dev nD) : Vec Ideal S64x4096x128 .f32 := V m c main_arg1
/-- Their blocks at a grid point. -/
abbrev qblk (c : Dev nD) (t : Fin cfg0.N) : Vec Ideal S32x32x128 .f32 := iblk m c 0 t
abbrev dblk (c : Dev nD) (t : Fin cfg0.N) : Vec Ideal S32x512x128 .f32 := iblk m c 1 t

/-- Batch row `b` of batch tile `g`. -/
def row (g : Fin 2) (b : Fin 32) : Fin 64 := ⟨32 * g.val + b.val, by have := g.isLt; have := b.isLt; omega⟩

/-- The printed index maps over the grid: the batch tile is the point divided by 8, the document tile the remainder. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = t.val / 8 ∧ win0_2.index t (1 : Fin 2) = 0 :=
  (by decide +kernel : ∀ t : Fin grid0.N, _)

/-- A query block's entry is the query array's entry of its batch row. -/
theorem qblk_apply (c : Dev nD) (t : Fin cfg0.N) (b p : Fin 32) (k : Fin 128) (B : Fin 64)
    (hB : B.val = 32 * (t.val / 8) + b.val) :
    qblk m c t (ix3 b p k) = Q m c (ix3 B p k) := by
  show iblk m c 0 t (ix3 b p k) = _
  unfold iblk
  rw [View.read_apply]
  show V m c main_arg0 _ = V m c main_arg0 _
  congr 1
  funext a
  apply Fin.ext
  obtain ⟨e0, e1, e2, -⟩ := idx_facts t
  match a with
  | ⟨0, _⟩ => show win0_0.index t (0 : Fin 3) * 32 + 1 * b.val = B.val; omega
  | ⟨1, _⟩ => show win0_0.index t (1 : Fin 3) * 32 + 1 * p.val = p.val; omega
  | ⟨2, _⟩ => show win0_0.index t (2 : Fin 3) * 128 + 1 * k.val = k.val; omega

/-- A document block's entry is the document array's entry of its batch row and document token. -/
theorem dblk_apply (c : Dev nD) (t : Fin cfg0.N) (b : Fin 32) (l : Fin 512) (k : Fin 128) (B : Fin 64) (L : Fin 4096)
    (hB : B.val = 32 * (t.val / 8) + b.val) (hL : L.val = 512 * (t.val % 8) + l.val) :
    dblk m c t (ix3 b l k) = D m c (ix3 B L k) := by
  show iblk m c 1 t (ix3 b l k) = _
  unfold iblk
  rw [View.read_apply]
  show V m c main_arg1 _ = V m c main_arg1 _
  congr 1
  funext a
  apply Fin.ext
  obtain ⟨-, -, -, e0, e1, e2, -⟩ := idx_facts t
  match a with
  | ⟨0, _⟩ => show win0_1.index t (0 : Fin 3) * 32 + 1 * b.val = B.val; omega
  | ⟨1, _⟩ => show win0_1.index t (1 : Fin 3) * 512 + 1 * l.val = L.val; omega
  | ⟨2, _⟩ => show win0_1.index t (2 : Fin 3) * 128 + 1 * k.val = k.val; omega

/-- The greatest score within the blocks of point 8 g + n is the greatest score within document tile n. -/
theorem tile_eq (c : Dev nD) (t : Fin cfg0.N) (g : Fin 2) (n : Fin 8) (ht : t.val = 8 * g.val + n.val) (b p : Fin 32) :
    (Finset.univ : Finset (Fin 512)).fold max negInf
        (fun l => ∑ k : Fin 128, qblk m c t (ix3 b p k) * dblk m c t (ix3 b l k))
      = tileBest (score (Q m c) (D m c) (row g b) p) n := by
  have hn := n.isLt
  unfold tileBest
  congr 1
  funext l
  unfold score
  refine Finset.sum_congr rfl fun k _ => ?_
  rw [qblk_apply m c t b p k (row g b) (by show 32 * g.val + b.val = _; omega),
    dblk_apply m c t b l k (row g b) (tok n l) (by show 32 * g.val + b.val = _; omega)
      (by show 512 * n.val + l.val = _; omega)]

/-- THE INVARIANT: after point 8 g + n the running maxima hold, at (b, p), the running maximum after tile n of the
    scores of query token p of batch row 32 g + b. -/
theorem held_at (c : Dev nD) (g : Fin 2) : ∀ (n : ℕ) (hn : n < 8) (t : Fin cfg0.N) (ht : t.val = 8 * g.val + n)
    (b p : Fin 32),
    (outsAt0 m c t.val t.isLt).2 (ix2 b p) = running (score (Q m c) (D m c) (row g b) p) n hn
  | 0, hn, t, ht, b, p => by
    have h0 : t.val % 8 = 0 := by omega
    have h1 : ¬t.val % 8 = 7 := by omega
    rw [outsAt0_A m c t h0 h1]
    dsimp only
    refine (congrFun (Pieces.held_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 b p)).trans ?_
    refine (Payload.update_apply (qblk m c t) (dblk m c t) (k0_pay1 (F := Ideal)) b p).trans ?_
    rw [Payload.reset_apply]
    exact congrArg (max negInf) (tile_eq m c t g ⟨0, hn⟩ ht b p)
  | n + 1, hn, t, ht, b, p => by
    have h0 : ¬t.val % 8 = 0 := by omega
    have ih : (outsAt0 m c (t.val - 1) (Nat.lt_of_le_of_lt (Nat.sub_le _ _) t.isLt)).2 (ix2 b p) = running (score (Q m c) (D m c) (row g b) p) n (Nat.lt_of_succ_lt hn) :=
      held_at c g n (Nat.lt_of_succ_lt hn) ⟨t.val - 1, Nat.lt_of_le_of_lt (Nat.sub_le _ _) t.isLt⟩
        (by show t.val - 1 = _; omega) b p
    by_cases h1 : t.val % 8 = 7
    · rw [outsAt0_C m c t h0 h1]
      dsimp only
      refine (congrFun (Pieces.held_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 b p)).trans ?_
      refine (Payload.update_apply (qblk m c t) (dblk m c t) (outsAt0 m c (t.val - 1) (Nat.lt_of_le_of_lt (Nat.sub_le _ _) t.isLt)).2 b p).trans ?_
      rw [ih]
      exact congrArg (max _) (tile_eq m c t g ⟨n + 1, hn⟩ ht b p)
    · rw [outsAt0_B m c t h0 h1]
      dsimp only
      refine (congrFun (Pieces.held_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 b p)).trans ?_
      refine (Payload.update_apply (qblk m c t) (dblk m c t) (outsAt0 m c (t.val - 1) (Nat.lt_of_le_of_lt (Nat.sub_le _ _) t.isLt)).2 b p).trans ?_
      rw [ih]
      exact congrArg (max _) (tile_eq m c t g ⟨n + 1, hn⟩ ht b p)

/-- THE WRITTEN-BACK BLOCK: after point 8 g + 7 it holds, at (b, lane) for every lane, the result of batch row 32 g + b. -/
theorem block_at (c : Dev nD) (g : Fin 2) (t : Fin cfg0.N) (ht : t.val = 8 * g.val + 7) (b : Fin 32) (lane : Fin 128) :
    (outsAt0 m c t.val t.isLt).1 (ix2 b lane) = maxSim (Q m c) (D m c) (row g b) := by
  have h0 : ¬t.val % 8 = 0 := by omega
  have h1 : t.val % 8 = 7 := by omega
  have e : (outsAt0 m c t.val t.isLt).2 = sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 := by
    rw [outsAt0_C m c t h0 h1]
  rw [outsAt0_C m c t h0 h1]
  dsimp only
  refine (congrFun (Pieces.block_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 b lane)).trans ?_
  refine (Payload.writeBack_apply _ b lane).trans ?_
  unfold maxSim
  refine Finset.sum_congr rfl fun p _ => ?_
  rw [← Cert.MaxSim.running_last _ (by decide)]
  exact (congrFun e (ix2 b p)).symm.trans (held_at m c g 7 (by decide) t ht b p)

end Cert.KernelIdeal.Held

end
-- ==== Proof.Result.lean ====
/-
  The kernel's result, over the extended reals.

  The region's output array is [64, 128]: every lane of row B holds the result of batch row B. Point 8 g + 7 (the
  last document tile of batch tile g) is the only point of batch tile g that writes its block back, and that
  block is rows 32 g .. 32 g + 31; the two written-back blocks tile the array. The host lines after the region
  take lane 0 of every row and drop the unit axis, so entry B of the program's result is the result of batch row B.
-/
import proofs.«170979_j15006615733213_1_alg».proof.Proof.Held
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Held
open Cert.MaxSim (maxSim)

variable (m : (ℓ : Loc nD τ sig) → Buf (Elt Ideal) ℓ) (ρ : Dev nD → PrngReg)

/-- The region's output array as it ends: row B holds the result of batch row B in every lane. -/
abbrev padded (c : Dev nD) : Vec Ideal S64x128 .f32 :=
  fun j => maxSim (Q m c) (D m c) ⟨(j 0).val, (j 0).isLt⟩

/-- The program's result: entry B is the result of batch row B. -/
abbrev result (c : Dev nD) : Vec Ideal S64 .f32 :=
  fun j => maxSim (Q m c) (D m c) ⟨(j 0).val, (j 0).isLt⟩

/-- What a point that writes back writes: its block of `padded`. -/
theorem flushed_eq (c : Dev nD) (t : Fin cfg0.N) (hf : (cfg0.win 2).flush t = true) :
    (dats m 0 c).flushed 2 t = ((cfg0.win 2).blk t).view.read (Elt Ideal) (padded m c) := by
  have h7 : t.val % 8 = 7 := (flush0_2 t).mp hf
  have hN : cfg0.N = 16 := N_0
  have htl := t.isLt
  have e0 : win0_2.index t (0 : Fin 2) = t.val / 8 := (idx_facts t).2.2.2.2.2.2.1
  show (cfg0.win 2).cut (grid0.coords t) ((dats m 0 c).after 2 t) = _
  rw [after0_2]
  funext y
  show (outsAt0 m c t.val t.isLt).1 y = padded m c (((cfg0.win 2).blk t).view.emb y)
  obtain ⟨b, lane, rfl⟩ : ∃ (b : Fin 32) (lane : Fin 128), y = ix2 b lane := ⟨y 0, y 1, eq_ix2 y⟩
  rw [block_at m c ⟨t.val / 8, by omega⟩ t (by show t.val = 8 * (t.val / 8) + 7; omega) b lane]
  show maxSim _ _ _ = maxSim _ _ _
  congr 1
  apply Fin.ext
  show 32 * (t.val / 8) + b.val = win0_2.index t (0 : Fin 2) * 32 + 1 * b.val
  omega

/-- An index of the array is in point `t`'s block iff each coordinate is in the block's range on its axis. -/
theorem mem_blk (t : Fin cfg0.N) (i : S64x128.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v0).slice (win0_2.rect t)).set ↔ _
  rw [View.set_slice_whole, Rect.mem_set_unit]
  exact Iff.rfl

/-- The output array after the run: row (B, lane) lies in the block point 8 (B / 32) + 7 writes back. -/
theorem final (c : Dev nD) : (dats m 0 c).arrAt 2 cfg0.N = padded m c :=
  (dats m 0 c).arrAt_eq_of_cover 2 (padded m c) (flushed_eq m c) fun i => by
    have hi0 : (i 0).val < 64 := (i 0).isLt
    have hi1 : (i 1).val < 128 := (i 1).isLt
    have hN : cfg0.N = 16 := N_0
    have hT : 8 * ((i 0).val / 32) + 7 < cfg0.N := by omega
    refine ⟨⟨8 * ((i 0).val / 32) + 7, hT⟩, (flush0_2 _).mpr (by show (8 * ((i 0).val / 32) + 7) % 8 = 7; omega), ?_⟩
    rw [mem_blk]
    have e0 : win0_2.index ⟨8 * ((i 0).val / 32) + 7, hT⟩ (0 : Fin 2) = (8 * ((i 0).val / 32) + 7) / 8 := (idx_facts ⟨_, hT⟩).2.2.2.2.2.2.1
    have e1 : win0_2.index ⟨8 * ((i 0).val / 32) + 7, hT⟩ (1 : Fin 2) = 0 := (idx_facts ⟨_, hT⟩).2.2.2.2.2.2.2
    intro a
    match a with
    | ⟨0, _⟩ =>
      show win0_2.index ⟨8 * ((i 0).val / 32) + 7, hT⟩ (0 : Fin 2) * 32 ≤ (i 0).val ∧ (i 0).val < win0_2.index ⟨8 * ((i 0).val / 32) + 7, hT⟩ (0 : Fin 2) * 32 + 32
      rw [e0]; omega
    | ⟨1, _⟩ =>
      show win0_2.index ⟨8 * ((i 0).val / 32) + 7, hT⟩ (1 : Fin 2) * 128 ≤ (i 1).val ∧ (i 1).val < win0_2.index ⟨8 * ((i 0).val / 32) + 7, hT⟩ (1 : Fin 2) * 128 + 128
      rw [e1]; omega

/-- The host lines after the region, of an output array `A`: lane 0 of every row, the unit axis dropped. -/
theorem tail_apply (A : Vec Ideal S64x128 .f32) (B : Fin 64) :
    shapeCast S64 (extractStridedSlice S64x1 ![0, 0] A slices_S64x128_S64x1_0_0) shapeCasts_S64x1_S64 (ix1 B)
      = A (ix2 B (0 : Fin 128)) := by
  refine (shapeCast_apply _ shapeCasts_S64x1_S64 (ix1 B) (ix2 B (0 : Fin 1)) (by
    rw [Shape.rowMajor_val_one, Shape.rowMajor_val_two]
    show B.val * 1 + 0 = B.val
    omega)).trans ?_
  exact extractStridedSlice_apply _ A _ _ _ (fun a => by
    match a with
    | ⟨0, _⟩ => show B.val = 0 + B.val; omega
    | ⟨1, _⟩ => rfl)

/-- What the program's result buffer holds after the host lines that follow the region. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0)
      = padded m c from (Pipeline.withArrays_arr spec0 launch0.win.arr_inj c _ _ 2).trans (final m c)]
  funext j
  obtain ⟨B, rfl⟩ : ∃ B : Fin 64, j = ix1 B := ⟨j 0, eq_ix1 j⟩
  exact tail_apply (padded m c) B

/-- THE RUN, READ: every weakly fair execution ends with the result buffer at `result` and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.lean ====
/-
  Late-interaction similarity, kernel against reference, over the extended reals.

  Both programs compute, for each of 64 batch entries, the sum over the 32 query tokens of the greatest inner
  product (over 128 features) of that query token with any of the 4096 document tokens.

  The reference does it in three whole-array steps: the batched inner products, the maximum over the document
  tokens from minus infinity, zero plus the sum over the query tokens.

  The kernel walks a grid of 2 batch tiles by 8 document tiles. At each point it multiplies a [32, 32, 128] block of
  queries with a [32, 512, 128] block of documents (narrowed to bf16 first, which changes nothing over the extended
  reals), takes each query token's maximum over the 512 tokens of the tile, and folds it by `max` into running
  maxima it carries from point to point, reset to minus infinity at a batch tile's first document tile; at the last
  document tile it sums the running maxima over the query tokens and writes the sums back, spread over 128 lanes.
  The host then keeps lane 0.

  The two agree because a maximum over 4096 tokens from minus infinity is the maximum folded tile by tile
  (`Cert.MaxSim.running_last`: `max` is commutative and associative with minus infinity its identity), and the
  inner products and the sum over query tokens are the same sums on both sides. No finiteness of the inputs is used.

  The three frames are the generated ones (the reference's is its generated run with the result dropped); the
  kernel's idealization is the kernel's own text read over the extended reals, so nothing is owed for it.
-/
import proofs.«170979_j15006615733213_1_alg».proof.Defs
import proofs.«170979_j15006615733213_1_alg».proof.Proof.Gen.Kernel
import proofs.«170979_j15006615733213_1_alg».proof.Proof.Gen.Kernel.Frame
import proofs.«170979_j15006615733213_1_alg».proof.Proof.Gen.KernelIdeal
import proofs.«170979_j15006615733213_1_alg».proof.Proof.Gen.KernelIdeal.Frame
import proofs.«170979_j15006615733213_1_alg».proof.Proof.Gen.ReferenceIdeal
import proofs.«170979_j15006615733213_1_alg».proof.Proof.Gen.ReferenceIdeal.Run
import proofs.«170979_j15006615733213_1_alg».proof.Proof.Gen.Pre_finite_inputs
import proofs.«170979_j15006615733213_1_alg».proof.Proof.RefSide
import proofs.«170979_j15006615733213_1_alg».proof.Proof.Result
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten, and the conjunct is `True`. -/
theorem preserves : Cert.preserves_Kernel_KernelIdeal := trivial

/-- Both programs end with entry B of the result at the sum over the query tokens of each one's greatest score
    against the document tokens of batch row B, of argument arrays that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, (hagree c).1, (hagree c).2]
  funext j
  obtain ⟨B, rfl⟩ : ∃ B : Fin 64, j = ix1 B := ⟨j 0, eq_ix1 j⟩
  exact Cert.ReferenceIdeal.RefValue.result_apply _ _ B

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
